-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x256 : Shape := ⟨3, ![128, 512, 256]⟩
abbrev S128x256 : Shape := ⟨2, ![128, 256]⟩
abbrev S1024x50 : Shape := ⟨2, ![1024, 50]⟩
abbrev S50 : Shape := ⟨1, ![50]⟩
abbrev S50x1 : Shape := ⟨2, ![50, 1]⟩
abbrev S1 : Shape := ⟨1, ![1]⟩
abbrev S_ : Shape := ⟨0, ![]⟩

class Facts : Prop where
  bcast_S_S128x512x256 : S_.BroadcastsInDim S128x512x256 (![] : Fin 0 → Fin S128x512x256.rank)
  reducesTo_S128x512x256_S_d0_1_2 : S128x512x256.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S1024x50 : S_.BroadcastsInDim S1024x50 (![] : Fin 0 → Fin S1024x50.rank)
  reducesTo_S1024x50_S_d0_1 : S1024x50.ReducesTo [0, 1] S_
  bcast_S_S50 : S_.BroadcastsInDim S50 (![] : Fin 0 → Fin S50.rank)
  reducesTo_S50_S_d0 : S50.ReducesTo [0] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S50 .f32) (main_arg5 : FVec F S50x1 .f32) (main_arg6 : FVec F S1 .f32) (main_v13 : IVec S_ 1) (main_v16 : IVec S1024x50 1) : IVec S_ 1 :=
  let main_c_5 : IVec S_ 1 := constantI S_ 1 1#1
  let main_v17 : IVec S_ 1 := (fun x v => Host.reduce IntOp.andi x v reducesTo_S1024x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x1 .f32 := Host.absf main_arg5
  let main_cst_8 : FVec F S_ .f32 := constant S_ .f32 0x7F800000#32
  let main_v25 : FVec F S50x1 .f32 := broadcastInDim S50x1 ![] bcast_S_S50x1 main_cst_8
  let main_v26 : IVec S50x1 1 := cmpf .olt main_v24 main_v25
  let main_c_9 : IVec S_ 1 := constantI S_ 1 1#1
  let main_v27 : IVec S_ 1 := (fun x v => Host.reduce IntOp.andi x v reducesTo_S50x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S128x512x256 .f32) (main_arg1 : FVec F S128x256 .f32) (main_arg2 : FVec F S128x256 .f32) (main_arg3 : FVec F S1024x50 .f32) (main_arg4 : FVec F S50 .f32) (main_arg5 : FVec F S50x1 .f32) (main_arg6 : FVec F S1 .f32) : IVec S_ 1 :=
  let main_v0 : FVec F S128x512x256 .f32 := Host.absf main_arg0
  let main_cst : FVec F S_ .f32 := constant S_ .f32 0x7F800000#32
  let main_v1 : FVec F S128x512x256 .f32 := broadcastInDim S128x512x256 ![] bcast_S_S128x512x256 main_cst
  let main_v2 : IVec S128x512x256 1 := cmpf .olt main_v0 main_v1
  let main_c : IVec S_ 1 := constantI S_ 1 1#1
  let main_v3 : IVec S_ 1 := (fun x v => Host.reduce IntOp.andi x v reducesTo_S128x512x256_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1024x50 .f32 := Host.absf main_arg3
  let main_cst_4 : FVec F S_ .f32 := constant S_ .f32 0x7F800000#32
  let main_v15 : FVec F S1024x50 .f32 := broadcastInDim S1024x50 ![] bcast_S_S1024x50 main_cst_4
  let main_v16 : IVec S1024x50 1 := cmpf .olt main_v14 main_v15
  fn_part1 (F := F) main_arg4 main_arg5 main_arg6 main_v13 main_v16
-- ==== Kernel.lean ====
abbrev S128x512x256 : Shape := ⟨3, ![128, 512, 256]⟩
abbrev S128x256 : Shape := ⟨2, ![128, 256]⟩
abbrev S1024x50 : Shape := ⟨2, ![1024, 50]⟩
abbrev S50 : Shape := ⟨1, ![50]⟩
abbrev S50x1 : Shape := ⟨2, ![50, 1]⟩
abbrev S1 : Shape := ⟨1, ![1]⟩
abbrev S256x50 : Shape := ⟨2, ![256, 50]⟩
abbrev S1x50 : Shape := ⟨2, ![1, 50]⟩
abbrev S128x512 : Shape := ⟨2, ![128, 512]⟩
abbrev S8x512x256 : Shape := ⟨3, ![8, 512, 256]⟩
abbrev S8x256 : Shape := ⟨2, ![8, 256]⟩
abbrev S8x512 : Shape := ⟨2, ![8, 512]⟩
abbrev S8x1x256 : Shape := ⟨3, ![8, 1, 256]⟩
abbrev S4096x256 : Shape := ⟨2, ![4096, 256]⟩
abbrev S4096x50 : Shape := ⟨2, ![4096, 50]⟩
abbrev S1x1x50 : Shape := ⟨3, ![1, 1, 50]⟩
abbrev S8x512x50 : Shape := ⟨3, ![8, 512, 50]⟩
abbrev S1x1 : Shape := ⟨2, ![1, 1]⟩
abbrev S128x512x1 : Shape := ⟨3, ![128, 512, 1]⟩
abbrev S_ : Shape := ⟨0, ![]⟩

abbrev nBuf : Space → Nat
  | .hbm => 26
  | .vmem => 15
  | .smem => 0
  | _ => 0

abbrev bufTy : (tb : Table) → Fin (tcTables nBuf tb) → BufTy
  | .hbm, ⟨0, _⟩ => ⟨S128x512x256, .f32⟩
  | .hbm, ⟨1, _⟩ => ⟨S128x256, .f32⟩
  | .hbm, ⟨2, _⟩ => ⟨S128x256, .f32⟩
  | .hbm, ⟨3, _⟩ => ⟨S1024x50, .f32⟩
  | .hbm, ⟨4, _⟩ => ⟨S50, .f32⟩
  | .hbm, ⟨5, _⟩ => ⟨S50x1, .f32⟩
  | .hbm, ⟨6, _⟩ => ⟨S1, .f32⟩
  | .hbm, ⟨7, _⟩ => ⟨S256x50, .f32⟩
  | .hbm, ⟨8, _⟩ => ⟨S256x50, .f32⟩
  | .hbm, ⟨9, _⟩ => ⟨S256x50, .f32⟩
  | .hbm, ⟨10, _⟩ => ⟨S256x50, .f32⟩
  | .hbm, ⟨11, _⟩ => ⟨S1x50, .f32⟩
  | .hbm, ⟨12, _⟩ => ⟨S128x512, .f32⟩
  | .hbm, ⟨13, _⟩ => ⟨S128x512x1, .f32⟩
  | .hbm, ⟨14, _⟩ => ⟨S_, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S128x512x1, .f32⟩
  | .hbm, ⟨20, _⟩ => ⟨S128x512x1, .f32⟩
  | .hbm, ⟨21, _⟩ => ⟨S128x512x1, .f32⟩
  | .hbm, ⟨22, _⟩ => ⟨S_, .f32⟩
  | .hbm, ⟨23, _⟩ => ⟨S128x512, .f32⟩
  | .hbm, ⟨24, _⟩ => ⟨S128x512x1, .f32⟩
  | .hbm, ⟨25, _⟩ => ⟨S128x512x1, .f32⟩
  | .local _ .vmem, ⟨0, _⟩ => ⟨S8x512x256, .f32⟩
  | .local _ .vmem, ⟨1, _⟩ => ⟨S8x512x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S256x50, .f32⟩
  | .local _ .vmem, ⟨7, _⟩ => ⟨S256x50, .f32⟩
  | .local _ .vmem, ⟨8, _⟩ => ⟨S256x50, .f32⟩
  | .local _ .vmem, ⟨9, _⟩ => ⟨S256x50, .f32⟩
  | .local _ .vmem, ⟨10, _⟩ => ⟨S50, .f32⟩
  | .local _ .vmem, ⟨11, _⟩ => ⟨S1x50, .f32⟩
  | .local _ .vmem, ⟨12, _⟩ => ⟨S1, .f32⟩
  | .local _ .vmem, ⟨13, _⟩ => ⟨S8x512, .f32⟩
  | .local _ .vmem, ⟨14, _⟩ => ⟨S8x512, .f32⟩
  | _, _ => ⟨S128x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1024x50_S256x50_0_0 : S1024x50.Slices ![0, 0] S256x50
  slices_S1024x50_S256x50_256_0 : S1024x50.Slices ![256, 0] S256x50
  slices_S1024x50_S256x50_512_0 : S1024x50.Slices ![512, 0] S256x50
  slices_S1024x50_S256x50_768_0 : S1024x50.Slices ![768, 0] S256x50
  shapeCasts_S50x1_S1x50 : S50x1.ShapeCasts S1x50
  inb_S8x512x256_S8x512x256_0_0_0 : ∀ a, (![0, 0, 0] : Fin 3 → Nat) a + S8x512x256.size a ≤ S8x512x256.size a
  h_S8x512x256 : 0 < S8x512x256.numel
  inb_S8x256_S8x256_0_0 : ∀ a, (![0, 0] : Fin 2 → Nat) a + S8x256.size a ≤ S8x256.size a
  h_S8x256 : 0 < S8x256.numel
  shapeCasts_S8x256_S8x1x256 : S8x256.ShapeCasts S8x1x256
  inb_S256x50_S256x50_0_0 : ∀ a, (![0, 0] : Fin 2 → Nat) a + S256x50.size a ≤ S256x50.size a
  h_S256x50 : 0 < S256x50.numel
  shapeCasts_S256x50_S256x50 : S256x50.ShapeCasts S256x50
  bitsLt_bf16_f32 : FTy.bits .bf16 < FTy.bits .f32
  broadcasts_S8x1x256_S8x512x256 : S8x1x256.Broadcasts S8x512x256
  shapeCasts_S8x512x256_S4096x256 : S8x512x256.ShapeCasts S4096x256
  inb_S50_S50_0 : ∀ a, (![0] : Fin 1 → Nat) a + S50.size a ≤ S50.size a
  h_S50 : 0 < S50.numel
  shapeCasts_S50_S1x1x50 : S50.ShapeCasts S1x1x50
  shapeCasts_S4096x50_S8x512x50 : S4096x50.ShapeCasts S8x512x50
  broadcasts_S1x1x50_S8x512x50 : S1x1x50.Broadcasts S8x512x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  shapeCasts_S1x50_S1x1x50 : S1x50.ShapeCasts S1x1x50
  inb_S1_S1_0 : ∀ a, (![0] : Fin 1 → Nat) a + S1.size a ≤ S1.size a
  h_S1 : 0 < S1.numel
  shapeCasts_S1_S1x1 : S1.ShapeCasts S1x1
  reduces_S8x512x50_S8x512 : S8x512x50.Reduces [2] S8x512
  broadcasts_S1x1_S8x512 : S1x1.Broadcasts S8x512
  inb_S8x512_S8x512_0_0 : ∀ a, (![0, 0] : Fin 2 → Nat) a + S8x512.size a ≤ S8x512.size a
  h_S8x512 : 0 < S8x512.numel
  bcast_S128x512_S128x512x1_0_1 : S128x512.BroadcastsInDim S128x512x1 (![0, 1] : Fin 2 → Fin S128x512x1.rank)
  reducesTo_S128x512x1_S128x512_d2 : S128x512x1.ReducesTo [2] S128x512
  h_S_ : 0 < S_.numel
  bcast_S_S128x512 : S_.BroadcastsInDim S128x512 (![] : Fin 0 → Fin S128x512.rank)
  dot_S4096x256_S256x50_S4096x50_1_0_0_1_n_n_wf : DotDims.WF S4096x256 S256x50 S4096x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S128x512x256.size a
  hwx0_0 : ∀ i : grid0.Coords, EltTy.bits .f32 = 32 ∨ (Rect.block (s := S128x512x256) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S128x256.size a
  hwx0_1 : ∀ i : grid0.Coords, EltTy.bits .f32 = 32 ∨ (Rect.block (s := S128x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S128x256.size a
  hwx0_2 : ∀ i : grid0.Coords, EltTy.bits .f32 = 32 ∨ (Rect.block (s := S128x256) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x50.size a ≤ S256x50.size a
  hwx0_3 : ∀ i : grid0.Coords, EltTy.bits .f32 = 32 ∨ (Rect.block (s := S256x50) S256x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x50.size a ≤ S256x50.size a
  hwx0_4 : ∀ i : grid0.Coords, EltTy.bits .f32 = 32 ∨ (Rect.block (s := S256x50) S256x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x50.size a ≤ S256x50.size a
  hwx0_5 : ∀ i : grid0.Coords, EltTy.bits .f32 = 32 ∨ (Rect.block (s := S256x50) S256x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x50.size a ≤ S256x50.size a
  hwx0_6 : ∀ i : grid0.Coords, EltTy.bits .f32 = 32 ∨ (Rect.block (s := S256x50) S256x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50.size a ≤ S50.size a
  hwx0_7 : ∀ i : grid0.Coords, EltTy.bits .f32 = 32 ∨ (Rect.block (s := S50) S50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x512.size a ≤ S128x512.size a
  hwx0_10 : ∀ i : grid0.Coords, EltTy.bits .f32 = 32 ∨ (Rect.block (s := S128x512) S8x512.size (cc0_transform_10 i) (hinb0_10 i)).WholeWords (EltTy.packing .f32)

variable [Facts₀]

def dot_S4096x256_S256x50_S4096x50_1_0_0_1_n_n : DotDims S4096x256 S256x50 S4096x50 where
  lhsContracting := [1]
  rhsContracting := [0]
  lhsNonContracting := [0]
  rhsNonContracting := [1]
  lhsBatch := []
  rhsBatch := []
  wf := dot_S4096x256_S256x50_S4096x50_1_0_0_1_n_n_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S8x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S128x512x256 : Shape := ⟨3, ![128, 512, 256]⟩
abbrev S128x256 : Shape := ⟨2, ![128, 256]⟩
abbrev S1024x50 : Shape := ⟨2, ![1024, 50]⟩
abbrev S50 : Shape := ⟨1, ![50]⟩
abbrev S50x1 : Shape := ⟨2, ![50, 1]⟩
abbrev S1 : Shape := ⟨1, ![1]⟩
abbrev S128x1x256 : Shape := ⟨3, ![128, 1, 256]⟩
abbrev S128x512x1024 : Shape := ⟨3, ![128, 512, 1024]⟩
abbrev S128x512x50 : Shape := ⟨3, ![128, 512, 50]⟩
abbrev S1x1x50 : Shape := ⟨3, ![1, 1, 50]⟩
abbrev S128x512x1 : Shape := ⟨3, ![128, 512, 1]⟩
abbrev S1x1x1 : Shape := ⟨3, ![1, 1, 1]⟩
abbrev S_ : Shape := ⟨0, ![]⟩
abbrev S128x512 : Shape := ⟨2, ![128, 512]⟩

abbrev nBuf : Space → Nat
  | .hbm => 41
  | .vmem => 0
  | .smem => 0
  | _ => 0

abbrev bufTy : (tb : Table) → Fin (tcTables nBuf tb) → BufTy
  | .hbm, ⟨0, _⟩ => ⟨S128x512x256, .f32⟩
  | .hbm, ⟨1, _⟩ => ⟨S128x256, .f32⟩
  | .hbm, ⟨2, _⟩ => ⟨S128x256, .f32⟩
  | .hbm, ⟨3, _⟩ => ⟨S1024x50, .f32⟩
  | .hbm, ⟨4, _⟩ => ⟨S50, .f32⟩
  | .hbm, ⟨5, _⟩ => ⟨S50x1, .f32⟩
  | .hbm, ⟨6, _⟩ => ⟨S1, .f32⟩
  | .hbm, ⟨7, _⟩ => ⟨S128x1x256, .f32⟩
  | .hbm, ⟨8, _⟩ => ⟨S128x1x256, .f32⟩
  | .hbm, ⟨9, _⟩ => ⟨S128x512x256, .f32⟩
  | .hbm, ⟨10, _⟩ => ⟨S128x512x256, .f32⟩
  | .hbm, ⟨11, _⟩ => ⟨S128x512x256, .f32⟩
  | .hbm, ⟨12, _⟩ => ⟨S128x512x256, .f32⟩
  | .hbm, ⟨13, _⟩ => ⟨S128x512x256, .f32⟩
  | .hbm, ⟨14, _⟩ => ⟨S128x512x256, .f32⟩
  | .hbm, ⟨15, _⟩ => ⟨S128x512x256, .f32⟩
  | .hbm, ⟨16, _⟩ => ⟨S128x512x256, .f32⟩
  | .hbm, ⟨17, _⟩ => ⟨S128x512x256, .f32⟩
  | .hbm, ⟨18, _⟩ => ⟨S128x512x256, .f32⟩
  | .hbm, ⟨19, _⟩ => ⟨S128x512x1024, .f32⟩
  | .hbm, ⟨20, _⟩ => ⟨S128x512x50, .f32⟩
  | .hbm, ⟨21, _⟩ => ⟨S1x1x50, .f32⟩
  | .hbm, ⟨22, _⟩ => ⟨S128x512x50, .f32⟩
  | .hbm, ⟨23, _⟩ => ⟨S128x512x50, .f32⟩
  | .hbm, ⟨24, _⟩ => ⟨S128x512x50, .f32⟩
  | .hbm, ⟨25, _⟩ => ⟨S128x512x1, .f32⟩
  | .hbm, ⟨26, _⟩ => ⟨S1x1x1, .f32⟩
  | .hbm, ⟨27, _⟩ => ⟨S128x512x1, .f32⟩
  | .hbm, ⟨28, _⟩ => ⟨S128x512x1, .f32⟩
  | .hbm, ⟨29, _⟩ => ⟨S_, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512x1, .f32⟩
  | .hbm, ⟨35, _⟩ => ⟨S128x512x1, .f32⟩
  | .hbm, ⟨36, _⟩ => ⟨S128x512x1, .f32⟩
  | .hbm, ⟨37, _⟩ => ⟨S_, .f32⟩
  | .hbm, ⟨38, _⟩ => ⟨S128x512, .f32⟩
  | .hbm, ⟨39, _⟩ => ⟨S128x512x1, .f32⟩
  | .hbm, ⟨40, _⟩ => ⟨S128x512x1, .f32⟩
  | _, _ => ⟨S128x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S128x256_S128x1x256_0_2 : S128x256.BroadcastsInDim S128x1x256 (![0, 2] : Fin 2 → Fin S128x1x256.rank)
  bcast_S128x1x256_S128x512x256_0_1_2 : S128x1x256.BroadcastsInDim S128x512x256 (![0, 1, 2] : Fin 3 → Fin S128x512x256.rank)
  concatenates_S128x512x256_S128x512x256_S128x512x256_S128x512x256_S128x512x1024_d2 : Shape.Concatenates [S128x512x256, S128x512x256, S128x512x256, S128x512x256] S128x512x1024 2
  bcast_S50_S1x1x50_2 : S50.BroadcastsInDim S1x1x50 (![2] : Fin 1 → Fin S1x1x50.rank)
  bcast_S1x1x50_S128x512x50_0_1_2 : S1x1x50.BroadcastsInDim S128x512x50 (![0, 1, 2] : Fin 3 → Fin S128x512x50.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  reducesTo_S128x512x1_S128x512_d2 : S128x512x1.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  dot_S128x512x1024_S1024x50_S128x512x50_2_0_01_1_n_n_wf : DotDims.WF S128x512x1024 S1024x50 S128x512x50 [2] [0] [0, 1] [1] [] []
  dot_S128x512x50_S50x1_S128x512x1_2_0_01_1_n_n_wf : DotDims.WF S128x512x50 S50x1 S128x512x1 [2] [0] [0, 1] [1] [] []

variable [Facts₀]

def dot_S128x512x1024_S1024x50_S128x512x50_2_0_01_1_n_n : DotDims S128x512x1024 S1024x50 S128x512x50 where
  lhsContracting := [2]
  rhsContracting := [0]
  lhsNonContracting := [0, 1]
  rhsNonContracting := [1]
  lhsBatch := []
  rhsBatch := []
  wf := dot_S128x512x1024_S1024x50_S128x512x50_2_0_01_1_n_n_wf
def dot_S128x512x50_S50x1_S128x512x1_2_0_01_1_n_n : DotDims S128x512x50 S50x1 S128x512x1 where
  lhsContracting := [2]
  rhsContracting := [0]
  lhsNonContracting := [0, 1]
  rhsNonContracting := [1]
  lhsBatch := []
  rhsBatch := []
  wf := dot_S128x512x50_S50x1_S128x512x1_2_0_01_1_n_n_wf

class Facts : Prop extends Facts₀ where

variable [Facts]
-- ==== Proof.Spec.lean ====
/-
  The attention gate's logit, as one function of the argument arrays.

  For a batch row `b` and a time step `t` the gate reads one row `f = facts[b, t, :]` of 256 reals together with the
  rows `q = question[b, :]` and `m = memory[b, :]`, builds the four feature rows `f·q`, `f·m`, `|f − q|`, `|f − m|`,
  multiplies each by its own 256-row slab of the first layer's weights, adds the four products and the bias, applies
  `tanh`, and contracts the 50 hidden units against the second layer's weights, plus its bias:

      gate = (∑ h, tanh ((((∑ d, (f d · q d) · Wa d h + ∑ d, (f d · m d) · Wb d h)
                            + ∑ d, |f d − q d| · Wc d h) + ∑ d, |f d − m d| · Wd d h) + b1 h) · w2 h) + b2

  with `|x| = max x (−x)` on the extended reals. `logit` is `gate` at every `(b, t)`, the four slabs being rows
  `0…255`, `256…511`, `512…767`, `768…1023` of the one weight matrix `W1`.

  The one law used between the two programs is that a sum over 1024 consecutive indices is the sum of the four sums
  over its quarters (`sum_1024`): only commutativity and associativity of `+`, so it holds on the extended reals with
  no finiteness assumption.
-/
import Idealize.ShloMosaic.PureOps.Ideal
import Idealize.ShloMosaic.Lib.ValueIdx
import Mathlib.Algebra.BigOperators.Fin

noncomputable section

namespace Cert.Gate

open Idealize.ShloMosaic Idealize.ShloMosaic.ValueIdx

/-- A sum over `n + n + n + n` consecutive indices is the four sums over its quarters, added in order. -/
theorem sum_quarters {M : Type*} [AddCommMonoid M] (n : Nat) (g : Fin (n + n + n + n) → M) :
    ∑ k, g k = ((∑ d : Fin n, g ⟨d.val, by have := d.isLt; omega⟩ + ∑ d : Fin n, g ⟨n + d.val, by have := d.isLt; omega⟩)
        + ∑ d : Fin n, g ⟨n + n + d.val, by have := d.isLt; omega⟩) + ∑ d : Fin n, g ⟨n + n + n + d.val, by have := d.isLt; omega⟩ := by
  rw [Fin.sum_univ_add, Fin.sum_univ_add, Fin.sum_univ_add]
  rfl

/-- The same for the 1024 rows of the first layer's weight matrix. -/
theorem sum_1024 {M : Type*} [AddCommMonoid M] (g : Fin 1024 → M) :
    ∑ k, g k = ((∑ d : Fin 256, g ⟨d.val, by have := d.isLt; omega⟩ + ∑ d : Fin 256, g ⟨256 + d.val, by have := d.isLt; omega⟩)
        + ∑ d : Fin 256, g ⟨256 + 256 + d.val, by have := d.isLt; omega⟩) + ∑ d : Fin 256, g ⟨256 + 256 + 256 + d.val, by have := d.isLt; omega⟩ :=
  sum_quarters 256 g

/-- The gate on one row of facts `f`, one row of the question `q` and of the memory `m`, the four weight slabs, the first
    bias, the second layer's weights and its bias. -/
def gate (f q m : Fin 256 → EReal) (Wa Wb Wc Wd : Fin 256 → Fin 50 → EReal) (b1 w2 : Fin 50 → EReal) (b2 : EReal) : EReal :=
  (∑ h : Fin 50, Ideal.tanh ((((∑ d : Fin 256, (f d * q d) * Wa d h + ∑ d : Fin 256, (f d * m d) * Wb d h)
      + ∑ d : Fin 256, max (f d - q d) (-(f d - q d)) * Wc d h) + ∑ d : Fin 256, max (f d - m d) (-(f d - m d)) * Wd d h) + b1 h) * w2 h) + b2

/-- The logits `[128, 512]` of the whole batch: `gate` at every batch row and time step, the slabs cut from `W1`. -/
def logit (facts : (⟨3, ![128, 512, 256]⟩ : Shape).Idx → EReal) (question memory : (⟨2, ![128, 256]⟩ : Shape).Idx → EReal)
    (W1 : (⟨2, ![1024, 50]⟩ : Shape).Idx → EReal) (b1 : (⟨1, ![50]⟩ : Shape).Idx → EReal)
    (W2 : (⟨2, ![50, 1]⟩ : Shape).Idx → EReal) (b2 : (⟨1, ![1]⟩ : Shape).Idx → EReal) :
    (⟨2, ![128, 512]⟩ : Shape).Idx → EReal := fun i =>
  gate (fun d => facts (ix3 (i 0) (i 1) d)) (fun d => question (ix2 (i 0) d)) (fun d => memory (ix2 (i 0) d))
    (fun d h => W1 (ix2 (⟨d.val, by have := d.isLt; omega⟩ : Fin 1024) h))
    (fun d h => W1 (ix2 (⟨256 + d.val, by have := d.isLt; omega⟩ : Fin 1024) h))
    (fun d h => W1 (ix2 (⟨256 + 256 + d.val, by have := d.isLt; omega⟩ : Fin 1024) h))
    (fun d h => W1 (ix2 (⟨256 + 256 + 256 + d.val, by have := d.isLt; omega⟩ : Fin 1024) h))
    (fun h => b1 (ix1 h)) (fun h => W2 (ix2 h (0 : Fin 1))) (b2 (ix1 (0 : Fin 1)))

end Cert.Gate

end
-- ==== Proof.RefLogits.lean ====
/-
  The reference's logits are `logit` of its arguments.

  The reference concatenates the four feature arrays `f·q`, `f·m`, `|f − q|`, `|f − m|` along the last axis into
  `z[b, t, 0…1023]` and contracts `z` against the whole weight matrix `W1`; entry `k = 256 j + d` of `z[b, t, :]` is entry
  `d` of the `j`-th feature row, so the sum over `k` is the sum of the four sums over `d` (`sum_1024`), each against its
  own 256-row slab of `W1`: the gate of Proof/Spec.lean.
-/
import proofs.«139361_j22617297781349_1_alg».proof.Proof.Gen.ReferenceIdeal.Run
import proofs.«139361_j22617297781349_1_alg».proof.Proof.Gen.ReferenceIdeal.Read
import proofs.«139361_j22617297781349_1_alg».proof.Proof.Spec
import Idealize.ShloMosaic.Lib.Pipeline.Value
import Idealize.ShloMosaic.Lib.ValueIdx
import Idealize.ShloMosaic.PureOps.Ideal.Laws

noncomputable section

namespace Cert.Gate.Ref

open Cert.ReferenceIdeal Cert.ReferenceIdeal.Gen Cert.ReferenceIdeal.Read
open Idealize.ShloMosaic Idealize.ShloMosaic.TcCoe Idealize.ShloMosaic.ValueIdx

/-! ### The four feature arrays at an entry -/

/-- The question row broadcast over the time axis, at an entry. -/
theorem bq_apply (x1 : (⟨S128x256, .f32⟩ : BufTy).Contents (Elt Ideal)) (b : Fin 128) (t : Fin 512) (d : Fin 256) :
    val_main_v2 (F := Ideal) x1 (ix3 b t d) = x1 (ix2 b d) := by
  rw [val_main_v2_apply, val_main_v0_apply]
  exact congrArg x1 (funext fun a => Fin.ext (by match a with | ⟨0, _⟩ => rfl | ⟨1, _⟩ => rfl))

/-- The memory row broadcast over the time axis, at an entry. -/
theorem bm_apply (x2 : (⟨S128x256, .f32⟩ : BufTy).Contents (Elt Ideal)) (b : Fin 128) (t : Fin 512) (d : Fin 256) :
    val_main_v4 (F := Ideal) x2 (ix3 b t d) = x2 (ix2 b d) := by
  rw [val_main_v4_apply, val_main_v1_apply]
  exact congrArg x2 (funext fun a => Fin.ext (by match a with | ⟨0, _⟩ => rfl | ⟨1, _⟩ => rfl))

/-- The question row broadcast a second time (for the difference), at an entry. -/
theorem bq'_apply (x1 : (⟨S128x256, .f32⟩ : BufTy).Contents (Elt Ideal)) (b : Fin 128) (t : Fin 512) (d : Fin 256) :
    val_main_v6 (F := Ideal) x1 (ix3 b t d) = x1 (ix2 b d) := by
  rw [val_main_v6_apply, val_main_v0_apply]
  exact congrArg x1 (funext fun a => Fin.ext (by match a with | ⟨0, _⟩ => rfl | ⟨1, _⟩ => rfl))

/-- The memory row broadcast a second time (for the difference), at an entry. -/
theorem bm'_apply (x2 : (⟨S128x256, .f32⟩ : BufTy).Contents (Elt Ideal)) (b : Fin 128) (t : Fin 512) (d : Fin 256) :
    val_main_v9 (F := Ideal) x2 (ix3 b t d) = x2 (ix2 b d) := by
  rw [val_main_v9_apply, val_main_v1_apply]
  exact congrArg x2 (funext fun a => Fin.ext (by match a with | ⟨0, _⟩ => rfl | ⟨1, _⟩ => rfl))

/-- `f · q` at an entry. -/
theorem fq_apply (x0 : (⟨S128x512x256, .f32⟩ : BufTy).Contents (Elt Ideal)) (x1 : (⟨S128x256, .f32⟩ : BufTy).Contents (Elt Ideal))
    (b : Fin 128) (t : Fin 512) (d : Fin 256) :
    val_main_v3 (F := Ideal) x0 x1 (ix3 b t d) = x0 (ix3 b t d) * x1 (ix2 b d) := by
  rw [val_main_v3_apply, bq_apply]; rfl

/-- `f · m` at an entry. -/
theorem fm_apply (x0 : (⟨S128x512x256, .f32⟩ : BufTy).Contents (Elt Ideal)) (x2 : (⟨S128x256, .f32⟩ : BufTy).Contents (Elt Ideal))
    (b : Fin 128) (t : Fin 512) (d : Fin 256) :
    val_main_v5 (F := Ideal) x0 x2 (ix3 b t d) = x0 (ix3 b t d) * x2 (ix2 b d) := by
  rw [val_main_v5_apply, bm_apply]; rfl

/-- `|f − q|` at an entry. -/
theorem dq_apply (x0 : (⟨S128x512x256, .f32⟩ : BufTy).Contents (Elt Ideal)) (x1 : (⟨S128x256, .f32⟩ : BufTy).Contents (Elt Ideal))
    (b : Fin 128) (t : Fin 512) (d : Fin 256) :
    val_main_v8 (F := Ideal) x0 x1 (ix3 b t d)
      = max (x0 (ix3 b t d) - x1 (ix2 b d)) (-(x0 (ix3 b t d) - x1 (ix2 b d))) := by
  rw [val_main_v8_apply, val_main_v7_apply, bq'_apply]; rfl

/-- `|f − m|` at an entry. -/
theorem dm_apply (x0 : (⟨S128x512x256, .f32⟩ : BufTy).Contents (Elt Ideal)) (x2 : (⟨S128x256, .f32⟩ : BufTy).Contents (Elt Ideal))
    (b : Fin 128) (t : Fin 512) (d : Fin 256) :
    val_main_v11 (F := Ideal) x0 x2 (ix3 b t d)
      = max (x0 (ix3 b t d) - x2 (ix2 b d)) (-(x0 (ix3 b t d) - x2 (ix2 b d))) := by
  rw [val_main_v11_apply, val_main_v10_apply, bm'_apply]; rfl

/-! ### The concatenation `z` at an entry of each quarter -/

/-- Entries `0…255` of `z[b, t, :]` are the row `f · q`. -/
theorem z_apply_0 (x0 : (⟨S128x512x256, .f32⟩ : BufTy).Contents (Elt Ideal)) (x1 x2 : (⟨S128x256, .f32⟩ : BufTy).Contents (Elt Ideal))
    (b : Fin 128) (t : Fin 512) (d : Fin 256) :
    val_main_v12 (F := Ideal) x0 x1 x2 (ix3 b t (⟨d.val, by have := d.isLt; omega⟩ : Fin 1024))
      = val_main_v3 (F := Ideal) x0 x1 (ix3 b t d) := by
  unfold val_main_v12
  exact concatenate_apply_piece (2 : Fin S128x512x1024.rank) _ _ _ 0 (by show (0 : Nat) < 4; decide) S128x512x256 _ rfl rfl 0 rfl
    (ix3 b t d)
    (fun c => match c with
      | ⟨0, _⟩ => fun _ => rfl
      | ⟨1, _⟩ => fun _ => rfl
      | ⟨2, _⟩ => fun hne => absurd rfl hne)
    (Nat.zero_add _)

/-- Entries `256…511` of `z[b, t, :]` are the row `f · m`. -/
theorem z_apply_1 (x0 : (⟨S128x512x256, .f32⟩ : BufTy).Contents (Elt Ideal)) (x1 x2 : (⟨S128x256, .f32⟩ : BufTy).Contents (Elt Ideal))
    (b : Fin 128) (t : Fin 512) (d : Fin 256) :
    val_main_v12 (F := Ideal) x0 x1 x2 (ix3 b t (⟨256 + d.val, by have := d.isLt; omega⟩ : Fin 1024))
      = val_main_v5 (F := Ideal) x0 x2 (ix3 b t d) := by
  unfold val_main_v12
  exact concatenate_apply_piece (2 : Fin S128x512x1024.rank) _ _ _ 1 (by show (1 : Nat) < 4; decide) S128x512x256 _ rfl rfl 256 rfl
    (ix3 b t d)
    (fun c => match c with
      | ⟨0, _⟩ => fun _ => rfl
      | ⟨1, _⟩ => fun _ => rfl
      | ⟨2, _⟩ => fun hne => absurd rfl hne)
    rfl

/-- Entries `512…767` of `z[b, t, :]` are the row `|f − q|`. -/
theorem z_apply_2 (x0 : (⟨S128x512x256, .f32⟩ : BufTy).Contents (Elt Ideal)) (x1 x2 : (⟨S128x256, .f32⟩ : BufTy).Contents (Elt Ideal))
    (b : Fin 128) (t : Fin 512) (d : Fin 256) :
    val_main_v12 (F := Ideal) x0 x1 x2 (ix3 b t (⟨256 + 256 + d.val, by have := d.isLt; omega⟩ : Fin 1024))
      = val_main_v8 (F := Ideal) x0 x1 (ix3 b t d) := by
  unfold val_main_v12
  exact concatenate_apply_piece (2 : Fin S128x512x1024.rank) _ _ _ 2 (by show (2 : Nat) < 4; decide) S128x512x256 _ rfl rfl 512 rfl
    (ix3 b t d)
    (fun c => match c with
      | ⟨0, _⟩ => fun _ => rfl
      | ⟨1, _⟩ => fun _ => rfl
      | ⟨2, _⟩ => fun hne => absurd rfl hne)
    rfl

/-- Entries `768…1023` of `z[b, t, :]` are the row `|f − m|`. -/
theorem z_apply_3 (x0 : (⟨S128x512x256, .f32⟩ : BufTy).Contents (Elt Ideal)) (x1 x2 : (⟨S128x256, .f32⟩ : BufTy).Contents (Elt Ideal))
    (b : Fin 128) (t : Fin 512) (d : Fin 256) :
    val_main_v12 (F := Ideal) x0 x1 x2 (ix3 b t (⟨256 + 256 + 256 + d.val, by have := d.isLt; omega⟩ : Fin 1024))
      = val_main_v11 (F := Ideal) x0 x2 (ix3 b t d) := by
  unfold val_main_v12
  exact concatenate_apply_piece (2 : Fin S128x512x1024.rank) _ _ _ 3 (by show (3 : Nat) < 4; decide) S128x512x256 _ rfl rfl 768 rfl
    (ix3 b t d)
    (fun c => match c with
      | ⟨0, _⟩ => fun _ => rfl
      | ⟨1, _⟩ => fun _ => rfl
      | ⟨2, _⟩ => fun hne => absurd rfl hne)
    rfl

/-! ### The contraction indices, by coordinates -/

/-- The first contraction reads `z` at the entry's batch row and time step and the contracted position. -/
theorem lidx13_eq (b : Fin 128) (t : Fin 512) (h : Fin 50) (k : Fin 1024) :
    lidx_main_v13 (ix3 b t h) k = ix3 b t k :=
  funext fun a => Fin.ext (by match a with | ⟨0, _⟩ => rfl | ⟨1, _⟩ => rfl | ⟨2, _⟩ => rfl)

/-- The first contraction reads `W1` at the contracted position and the hidden unit. -/
theorem ridx13_eq (b : Fin 128) (t : Fin 512) (h : Fin 50) (k : Fin 1024) :
    ridx_main_v13 (ix3 b t h) k = ix2 k h :=
  funext fun a => Fin.ext (by match a with | ⟨0, _⟩ => rfl | ⟨1, _⟩ => rfl)

/-- The first bias is read at the hidden unit. -/
theorem bidx_eq (b : Fin 128) (t : Fin 512) (h : Fin 50) :
    idx_main_v14 (idx_main_v15 (ix3 b t h)) = ix1 h :=
  funext fun a => Fin.ext (by match a with | ⟨0, _⟩ => rfl)

/-- The second contraction reads the hidden layer at the entry's batch row and time step and the hidden unit. -/
theorem lidx18_eq (i : S128x512x1.Idx) (h : Fin 50) :
    lidx_main_v18 i h = ix3 (n0 := 128) (n1 := 512) (i 0) (i 1) h :=
  funext fun a => Fin.ext (by match a with | ⟨0, _⟩ => rfl | ⟨1, _⟩ => rfl | ⟨2, _⟩ => rfl)

/-- The second contraction reads `W2` at the hidden unit; its other axis has one position. -/
theorem ridx18_eq (i : S128x512x1.Idx) (h : Fin 50) :
    ridx_main_v18 i h = ix2 h (0 : Fin 1) :=
  funext fun a => Fin.ext (by
    match a with
    | ⟨0, _⟩ => rfl
    | ⟨1, _⟩ => exact Nat.lt_one_iff.1 (i 2).isLt)

/-- The second bias has one entry. -/
theorem b2idx_eq (i : S128x512x1.Idx) : idx_main_v19 (idx_main_v20 i) = ix1 (0 : Fin 1) :=
  funext fun a => Fin.ext (by match a with | ⟨0, _⟩ => rfl)

/-! ### One hidden unit -/

/-- Hidden unit `h` at batch row `b` and time step `t`: `tanh` of the four slab products of the feature rows, added in
    order, plus the bias. The sum over the 1024 entries of `z[b, t, :]` is cut into its quarters and each quarter's
    entries are read from its own feature row. -/
theorem hidden_apply (x0 : (⟨S128x512x256, .f32⟩ : BufTy).Contents (Elt Ideal)) (x1 x2 : (⟨S128x256, .f32⟩ : BufTy).Contents (Elt Ideal))
    (x3 : (⟨S1024x50, .f32⟩ : BufTy).Contents (Elt Ideal)) (x4 : (⟨S50, .f32⟩ : BufTy).Contents (Elt Ideal))
    (b : Fin 128) (t : Fin 512) (h : Fin 50) :
    val_main_v17 (F := Ideal) x0 x1 x2 x3 x4 (ix3 b t h)
      = Ideal.tanh ((((∑ d : Fin 256, (x0 (ix3 b t d) * x1 (ix2 b d)) * x3 (ix2 (⟨d.val, by have := d.isLt; omega⟩ : Fin 1024) h)
            + ∑ d : Fin 256, (x0 (ix3 b t d) * x2 (ix2 b d)) * x3 (ix2 (⟨256 + d.val, by have := d.isLt; omega⟩ : Fin 1024) h))
          + ∑ d : Fin 256, max (x0 (ix3 b t d) - x1 (ix2 b d)) (-(x0 (ix3 b t d) - x1 (ix2 b d)))
              * x3 (ix2 (⟨256 + 256 + d.val, by have := d.isLt; omega⟩ : Fin 1024) h))
          + ∑ d : Fin 256, max (x0 (ix3 b t d) - x2 (ix2 b d)) (-(x0 (ix3 b t d) - x2 (ix2 b d)))
              * x3 (ix2 (⟨256 + 256 + 256 + d.val, by have := d.isLt; omega⟩ : Fin 1024) h)) + x4 (ix1 h)) := by
  rw [val_main_v17_apply, val_main_v16_apply, val_main_v13_apply, val_main_v15_apply, val_main_v14_apply, bidx_eq,
    Cert.Gate.sum_1024]
  simp only [Ideal.hostUnary_tanh_def, Ideal.addf_def]
  refine congrArg Ideal.tanh (congrArg (· + x4 (ix1 h)) ?_)
  refine congrArg₂ (· + ·) (congrArg₂ (· + ·) (congrArg₂ (· + ·) ?_ ?_) ?_) ?_
  · exact Finset.sum_congr rfl fun d _ => by rw [lidx13_eq, ridx13_eq, z_apply_0, fq_apply]
  · exact Finset.sum_congr rfl fun d _ => by rw [lidx13_eq, ridx13_eq, z_apply_1, fm_apply]
  · exact Finset.sum_congr rfl fun d _ => by rw [lidx13_eq, ridx13_eq, z_apply_2, dq_apply]
  · exact Finset.sum_congr rfl fun d _ => by rw [lidx13_eq, ridx13_eq, z_apply_3, dm_apply]

/-- The reference's logits `[128, 512, 1]` (its value before the softmax), read at an entry, are the gate's logit at
    that entry's batch row and time step. -/
theorem logits_apply (x0 : (⟨S128x512x256, .f32⟩ : BufTy).Contents (Elt Ideal)) (x1 x2 : (⟨S128x256, .f32⟩ : BufTy).Contents (Elt Ideal))
    (x3 : (⟨S1024x50, .f32⟩ : BufTy).Contents (Elt Ideal)) (x4 : (⟨S50, .f32⟩ : BufTy).Contents (Elt Ideal))
    (x5 : (⟨S50x1, .f32⟩ : BufTy).Contents (Elt Ideal)) (x6 : (⟨S1, .f32⟩ : BufTy).Contents (Elt Ideal)) (i : S128x512x1.Idx) :
    val_main_v21 (F := Ideal) x0 x1 x2 x3 x4 x5 x6 i = Cert.Gate.logit x0 x1 x2 x3 x4 x5 x6 (ix2 (i 0) (i 1)) := by
  rw [val_main_v21_apply, val_main_v18_apply, val_main_v20_apply, val_main_v19_apply, b2idx_eq]
  unfold Cert.Gate.logit Cert.Gate.gate
  refine congrArg (· + x6 (ix1 (0 : Fin 1))) (Finset.sum_congr rfl fun h _ => ?_)
  rw [lidx18_eq, ridx18_eq]
  exact congrArg (· * x5 (ix2 h (0 : Fin 1))) (hidden_apply x0 x1 x2 x3 x4 (i 0) (i 1) h)

end Cert.Gate.Ref

end
-- ==== Proof.Tail.lean ====
/-
  The softmax both programs end with, and the reference's result through it.

  Both programs finish with `jax.nn.softmax` over a last axis of extent one: the maximum over that axis (from `-∞`),
  the difference, `exp`, the sum over the axis (from `0`), the quotient. It is the same text on both sides, so it is kept
  closed as one function `softmax1` of the logits `[128, 512, 1]`: equal logits give equal results whatever the
  extended-real conventions of `exp`, of the difference of infinities and of the quotient are.
-/
import proofs.«139361_j22617297781349_1_alg».proof.Proof.Gen.ReferenceIdeal.Run
import proofs.«139361_j22617297781349_1_alg».proof.Proof.Gen.ReferenceIdeal.Read
import proofs.«139361_j22617297781349_1_alg».proof.Proof.RefLogits

noncomputable section

namespace Cert.Gate.Ref

open Cert.ReferenceIdeal Cert.ReferenceIdeal.Gen Cert.ReferenceIdeal.Read
open Idealize.ShloMosaic Idealize.ShloMosaic.TcCoe Idealize.ShloMosaic.ValueIdx

/-- The softmax over the last axis (of extent one) of logits `[128, 512, 1]`, as the host computes it. -/
def softmax1 (L : (⟨S128x512x1, .f32⟩ : BufTy).Contents (Elt Ideal)) : (⟨S128x512x1, .f32⟩ : BufTy).Contents (Elt Ideal) :=
  Host.divf (F := Ideal)
    (Host.exp (F := Ideal) (subf (F := Ideal) L (broadcastInDim S128x512x1 ![0, 1] bcast_S128x512_S128x512x1_0_1
      (maximumf (F := Ideal) (broadcastInDim S128x512 ![] bcast_S_S128x512 (constant (F := Ideal) S_ .f32 0xFF800000#32))
        (Host.reduce (FloatOps.maximumf (F := Ideal) (φ := .f32)) L (constant (F := Ideal) S_ .f32 0xFF800000#32) reducesTo_S128x512x1_S128x512_d2 h_S_)))))
    (broadcastInDim S128x512x1 ![0, 1] bcast_S128x512_S128x512x1_0_1
      (Host.reduceAdd (F := Ideal)
        (Host.exp (F := Ideal) (subf (F := Ideal) L (broadcastInDim S128x512x1 ![0, 1] bcast_S128x512_S128x512x1_0_1
          (maximumf (F := Ideal) (broadcastInDim S128x512 ![] bcast_S_S128x512 (constant (F := Ideal) S_ .f32 0xFF800000#32))
            (Host.reduce (FloatOps.maximumf (F := Ideal) (φ := .f32)) L (constant (F := Ideal) S_ .f32 0xFF800000#32) reducesTo_S128x512x1_S128x512_d2 h_S_)))))
        (constant (F := Ideal) S_ .f32 0x00000000#32) reducesTo_S128x512x1_S128x512_d2 h_S_))

/-- The logits with their trailing unit axis: entry `(b, t, 0)` is `logit` at `(b, t)`. -/
def logits3 (x0 : (⟨S128x512x256, .f32⟩ : BufTy).Contents (Elt Ideal)) (x1 x2 : (⟨S128x256, .f32⟩ : BufTy).Contents (Elt Ideal))
    (x3 : (⟨S1024x50, .f32⟩ : BufTy).Contents (Elt Ideal)) (x4 : (⟨S50, .f32⟩ : BufTy).Contents (Elt Ideal))
    (x5 : (⟨S50x1, .f32⟩ : BufTy).Contents (Elt Ideal)) (x6 : (⟨S1, .f32⟩ : BufTy).Contents (Elt Ideal)) :
    (⟨S128x512x1, .f32⟩ : BufTy).Contents (Elt Ideal) :=
  fun i => Cert.Gate.logit x0 x1 x2 x3 x4 x5 x6 (ix2 (i 0) (i 1))

/-- The reference's result is the softmax of its logits, and those are `logit` of its arguments. -/
theorem result_eq (x0 : (⟨S128x512x256, .f32⟩ : BufTy).Contents (Elt Ideal)) (x1 x2 : (⟨S128x256, .f32⟩ : BufTy).Contents (Elt Ideal))
    (x3 : (⟨S1024x50, .f32⟩ : BufTy).Contents (Elt Ideal)) (x4 : (⟨S50, .f32⟩ : BufTy).Contents (Elt Ideal))
    (x5 : (⟨S50x1, .f32⟩ : BufTy).Contents (Elt Ideal)) (x6 : (⟨S1, .f32⟩ : BufTy).Contents (Elt Ideal)) :
    val_main_v30 (F := Ideal) x0 x1 x2 x3 x4 x5 x6 = softmax1 (logits3 x0 x1 x2 x3 x4 x5 x6) := by
  have e : val_main_v21 (F := Ideal) x0 x1 x2 x3 x4 x5 x6 = logits3 x0 x1 x2 x3 x4 x5 x6 :=
    funext fun i => logits_apply x0 x1 x2 x3 x4 x5 x6 i
  refine Eq.trans ?_ (congrArg softmax1 e)
  unfold val_main_v30 val_main_v29 val_main_v28 val_main_v27 val_main_v26 val_main_v25 val_main_v24 val_main_v23 val_main_v22
    val_main_cst val_main_cst_0 val_main_cst_1 softmax1
  rfl

end Cert.Gate.Ref

end
-- ==== Proof.KernelBlock.lean ====
/-
  What one grid step of the kernel leaves in its output block, entry by entry.

  A grid step holds eight batch rows: a block `x0` of facts `[8, 512, 256]`, the question and memory rows `x1, x2 : [8, 256]`,
  the four weight slabs `x3 … x6 : [256, 50]`, the first bias `x7 : [50]`, the second layer's weights as a row `x8 : [1, 50]`
  and its bias `x9 : [1]`. The body flattens the facts block to `[4096, 256]` (row `512 p + r` is batch row `p`, time `r`),
  forms the four feature matrices, multiplies each by its slab into a zero accumulator and adds the four products, un-flattens,
  adds the bias, applies `tanh`, weights by `x8`, sums the 50 hidden units and adds `x9`. Read at entry `(p, r)` this is the gate
  of Proof/Spec.lean on the rows `x0[p, r, :]`, `x1[p, :]`, `x2[p, :]` (a change of float format is the identity on the extended
  reals, a product into a zero accumulator is the plain sum over the contracted index, a lane reduction from zero is the sum).
-/
import proofs.«139361_j22617297781349_1_alg».proof.Proof.Gen.KernelIdeal.Skeleton
import proofs.«139361_j22617297781349_1_alg».proof.Proof.Spec
import Idealize.ShloMosaic.Lib.Pipeline.Value
import Idealize.ShloMosaic.Lib.ValueIdx
import Idealize.ShloMosaic.PureOps.Ideal.Laws

noncomputable section

namespace Cert.Gate.Kern

open Cert.KernelIdeal Cert.KernelIdeal.Gen
open Idealize.ShloMosaic Idealize.ShloMosaic.TcCoe Idealize.ShloMosaic.ValueIdx

/-! ## The matrix product of a flattened block with a weight slab -/

theorem lhs_axis0 (i : S4096x50.Idx) (q : dot_S4096x256_S256x50_S4096x50_1_0_0_1_n_n.contr.Idx) :
    (dot_S4096x256_S256x50_S4096x50_1_0_0_1_n_n.lhsIdx i q 0).val = (i 0).val := by
  unfold DotDims.lhsIdx
  rw [dif_neg (show ¬(0 : Fin S4096x256.rank) ∈ dot_S4096x256_S256x50_S4096x50_1_0_0_1_n_n.lhsBatch by decide), dif_pos (show (0 : Fin S4096x256.rank) ∈ dot_S4096x256_S256x50_S4096x50_1_0_0_1_n_n.lhsNonContracting by decide)]
  rfl
theorem lhs_axis1 (i : S4096x50.Idx) (q : dot_S4096x256_S256x50_S4096x50_1_0_0_1_n_n.contr.Idx) :
    (dot_S4096x256_S256x50_S4096x50_1_0_0_1_n_n.lhsIdx i q 1).val = (q ⟨0, by decide⟩).val :=
  dot_S4096x256_S256x50_S4096x50_1_0_0_1_n_n.lhsIdx_val_of_single rfl i q
theorem rhs_axis0 (i : S4096x50.Idx) (q : dot_S4096x256_S256x50_S4096x50_1_0_0_1_n_n.contr.Idx) :
    (dot_S4096x256_S256x50_S4096x50_1_0_0_1_n_n.rhsIdx i q 0).val = (q ⟨0, by decide⟩).val :=
  dot_S4096x256_S256x50_S4096x50_1_0_0_1_n_n.rhsIdx_val_of_single rfl i q
theorem rhs_axis1 (i : S4096x50.Idx) (q : dot_S4096x256_S256x50_S4096x50_1_0_0_1_n_n.contr.Idx) :
    (dot_S4096x256_S256x50_S4096x50_1_0_0_1_n_n.rhsIdx i q 1).val = (i 1).val := by
  unfold DotDims.rhsIdx
  rw [dif_neg (show ¬(1 : Fin S256x50.rank) ∈ dot_S4096x256_S256x50_S4096x50_1_0_0_1_n_n.rhsBatch by decide), dif_pos (show (1 : Fin S256x50.rank) ∈ dot_S4096x256_S256x50_S4096x50_1_0_0_1_n_n.rhsNonContracting by decide)]
  rfl

/-- A `[4096, 256]` matrix times a `[256, 50]` slab into the zero accumulator, at entry `(R, h)`: the sum over the 256
    contracted indices. -/
theorem mm_apply (A : FVec Ideal S4096x256 .bf16) (B : FVec Ideal S256x50 .bf16) (R : Fin 4096) (h : Fin 50) :
    matmul dot_S4096x256_S256x50_S4096x50_1_0_0_1_n_n none A B (constant S4096x50 .f32 0x00000000#32) (ix2 R h)
      = ∑ d : Fin 256, A (ix2 R d) * B (ix2 d h) := by
  simp only [matmul]
  rw [Ideal.matmul_constant_zero_apply, ← Equiv.sum_comp (ValueIdx.contrEquiv1 dot_S4096x256_S256x50_S4096x50_1_0_0_1_n_n 256 rfl rfl).symm]
  refine Finset.sum_congr rfl fun k _ => ?_
  have hk := ValueIdx.contrEquiv1_symm_val dot_S4096x256_S256x50_S4096x50_1_0_0_1_n_n 256 rfl rfl k
  have el : dot_S4096x256_S256x50_S4096x50_1_0_0_1_n_n.lhsIdx (ix2 R h) ((ValueIdx.contrEquiv1 dot_S4096x256_S256x50_S4096x50_1_0_0_1_n_n 256 rfl rfl).symm k) = ix2 R k := funext fun a => Fin.ext (by
    match a with
    | ⟨0, _⟩ => exact lhs_axis0 _ _
    | ⟨1, _⟩ => exact (lhs_axis1 _ _).trans hk)
  have er : dot_S4096x256_S256x50_S4096x50_1_0_0_1_n_n.rhsIdx (ix2 R h) ((ValueIdx.contrEquiv1 dot_S4096x256_S256x50_S4096x50_1_0_0_1_n_n 256 rfl rfl).symm k) = ix2 k h := funext fun a => Fin.ext (by
    match a with
    | ⟨0, _⟩ => exact (rhs_axis0 _ _).trans hk
    | ⟨1, _⟩ => exact rhs_axis1 _ _)
  rw [el, er]

/-! ## The layout operations of the body, read at an entry -/

/-- The flat row of batch row `p` and time `r` of a block. -/
abbrev flatRow (p : Fin 8) (r : Fin 512) : Fin 4096 := ⟨512 * p.val + r.val, by have := p.isLt; have := r.isLt; omega⟩

/-- Flattening `[8, 512, 256]` to `[4096, 256]`: row `512 p + r` is `(p, r)`. -/
theorem flatten_apply {α : Type} (v : S8x512x256.Idx → α) (hc : S8x512x256.ShapeCasts S4096x256) (p : Fin 8) (r : Fin 512) (d : Fin 256) :
    shapeCast S4096x256 v hc (ix2 (flatRow p r) d) = v (ix3 p r d) := by
  refine shapeCast_apply v hc _ (ix3 p r d) ?_
  rw [Shape.rowMajor_val_three, Shape.rowMajor_val_two]
  show (p.val * 512 + r.val) * 256 + d.val = (512 * p.val + r.val) * 256 + d.val
  omega

/-- Un-flattening `[4096, 50]` to `[8, 512, 50]`: `(p, r)` is row `512 p + r`. -/
theorem unflatten_apply {α : Type} (v : S4096x50.Idx → α) (hc : S4096x50.ShapeCasts S8x512x50) (p : Fin 8) (r : Fin 512) (h : Fin 50) :
    shapeCast S8x512x50 v hc (ix3 p r h) = v (ix2 (flatRow p r) h) := by
  refine shapeCast_apply v hc _ (ix2 (flatRow p r) h) ?_
  rw [Shape.rowMajor_val_three, Shape.rowMajor_val_two]
  show (512 * p.val + r.val) * 50 + h.val = (p.val * 512 + r.val) * 50 + h.val
  omega

/-- A `[8, 256]` row block laid over the 512 time steps: entry `(p, r, d)` is `(p, d)`. -/
theorem rows_apply {α : Type} (x : S8x256.Idx → α) (hc : S8x256.ShapeCasts S8x1x256) (hb : S8x1x256.Broadcasts S8x512x256)
    (p : Fin 8) (r : Fin 512) (d : Fin 256) :
    broadcastTo S8x512x256 (shapeCast S8x1x256 x hc) hb (ix3 p r d) = x (ix2 p d) := by
  refine (broadcastTo_apply _ hb (ix3 p r d) (ix3 p (0 : Fin 1) d) (fun a => ?_)).trans ?_
  · match a with
    | ⟨0, _⟩ => show p.val = if (8 : Nat) = 1 then 0 else p.val; rw [if_neg (by decide)]
    | ⟨1, _⟩ => show 0 = if (1 : Nat) = 1 then 0 else r.val; rw [if_pos rfl]
    | ⟨2, _⟩ => show d.val = if (256 : Nat) = 1 then 0 else d.val; rw [if_neg (by decide)]
  · refine shapeCast_apply x hc _ (ix2 p d) ?_
    rw [Shape.rowMajor_val_three, Shape.rowMajor_val_two]
    show p.val * 256 + d.val = (p.val * 1 + 0) * 256 + d.val
    omega

/-- A `[50]` vector laid over a `[8, 512, 50]` block: entry `(p, r, h)` is `h`. -/
theorem bias_apply {α : Type} (x : S50.Idx → α) (hc : S50.ShapeCasts S1x1x50) (hb : S1x1x50.Broadcasts S8x512x50)
    (p : Fin 8) (r : Fin 512) (h : Fin 50) :
    broadcastTo S8x512x50 (shapeCast S1x1x50 x hc) hb (ix3 p r h) = x (ix1 h) := by
  refine (broadcastTo_apply _ hb (ix3 p r h) (ix3 (0 : Fin 1) (0 : Fin 1) h) (fun a => ?_)).trans ?_
  · match a with
    | ⟨0, _⟩ => show 0 = if (1 : Nat) = 1 then 0 else p.val; rw [if_pos rfl]
    | ⟨1, _⟩ => show 0 = if (1 : Nat) = 1 then 0 else r.val; rw [if_pos rfl]
    | ⟨2, _⟩ => show h.val = if (50 : Nat) = 1 then 0 else h.val; rw [if_neg (by decide)]
  · refine shapeCast_apply x hc _ (ix1 h) ?_
    rw [Shape.rowMajor_val_three, Shape.rowMajor_val_one]
    show h.val = (0 * 1 + 0) * 50 + h.val
    omega

/-- A `[1, 50]` row laid over a `[8, 512, 50]` block: entry `(p, r, h)` is `(0, h)`. -/
theorem wrow_apply {α : Type} (x : S1x50.Idx → α) (hc0 : S1x50.ShapeCasts S1x50) (hc : S1x50.ShapeCasts S1x1x50) (hb : S1x1x50.Broadcasts S8x512x50)
    (p : Fin 8) (r : Fin 512) (h : Fin 50) :
    broadcastTo S8x512x50 (shapeCast S1x1x50 (shapeCast S1x50 x hc0) hc) hb (ix3 p r h) = x (ix2 (0 : Fin 1) h) := by
  rw [shapeCast_self]
  refine (broadcastTo_apply _ hb (ix3 p r h) (ix3 (0 : Fin 1) (0 : Fin 1) h) (fun a => ?_)).trans ?_
  · match a with
    | ⟨0, _⟩ => show 0 = if (1 : Nat) = 1 then 0 else p.val; rw [if_pos rfl]
    | ⟨1, _⟩ => show 0 = if (1 : Nat) = 1 then 0 else r.val; rw [if_pos rfl]
    | ⟨2, _⟩ => show h.val = if (50 : Nat) = 1 then 0 else h.val; rw [if_neg (by decide)]
  · refine shapeCast_apply x hc _ (ix2 (0 : Fin 1) h) ?_
    rw [Shape.rowMajor_val_three, Shape.rowMajor_val_two]
    show 0 * 50 + h.val = (0 * 1 + 0) * 50 + h.val
    omega

/-- A `[1]` scalar laid over a `[8, 512]` block. -/
theorem scalar_apply {α : Type} (x : S1.Idx → α) (hc : S1.ShapeCasts S1x1) (hb : S1x1.Broadcasts S8x512) (p : Fin 8) (r : Fin 512) :
    broadcastTo S8x512 (shapeCast S1x1 x hc) hb (ix2 p r) = x (ix1 (0 : Fin 1)) := by
  refine (broadcastTo_apply _ hb (ix2 p r) (ix2 (0 : Fin 1) (0 : Fin 1)) (fun a => ?_)).trans ?_
  · match a with
    | ⟨0, _⟩ => show 0 = if (1 : Nat) = 1 then 0 else p.val; rw [if_pos rfl]
    | ⟨1, _⟩ => show 0 = if (1 : Nat) = 1 then 0 else r.val; rw [if_pos rfl]
  · refine shapeCast_apply x hc _ (ix1 (0 : Fin 1)) ?_
    rw [Shape.rowMajor_val_two, Shape.rowMajor_val_one]
    show 0 = 0 * 1 + 0
    omega

/-- The lane sum of a `[8, 512, 50]` block from the zero word, at `(p, r)`: the sum over the 50 hidden units. -/
theorem lanes_apply (v : FVec Ideal S8x512x50 .f32) (hr : S8x512x50.Reduces [2] S8x512) (hφ : FKind.Formats .f32)
    (hacc : (0x00000000#32 : BitVec 32) = FKind.add.neutral .f32 hφ) (p : Fin 8) (r : Fin 512) :
    multiReduction .add [2] S8x512 v 0x00000000#32 hr hφ hacc (ix2 p r) = ∑ h : Fin 50, v (ix3 p r h) := by
  refine (Ideal.multiReduction_add_single v 0x00000000#32 hr hφ hacc (ix2 p r)).trans ?_
  refine Finset.sum_congr rfl fun h _ => congrArg v (funext fun a => Fin.ext ?_)
  match a with
  | ⟨0, _⟩ => rfl
  | ⟨1, _⟩ => rfl
  | ⟨2, _⟩ => rfl

/-! ## The body's stored value at an entry -/

/-- The value the body stores, as a term of the ten loaded blocks, read at entry `(p, r)`: the gate on that entry's rows. -/
theorem pay_apply (x0 : Vec Ideal S8x512x256 .f32) (x1 x2 : Vec Ideal S8x256 .f32) (x3 x4 x5 x6 : Vec Ideal S256x50 .f32)
    (x7 : Vec Ideal S50 .f32) (x8 : Vec Ideal S1x50 .f32) (x9 : Vec Ideal S1 .f32) (p : Fin 8) (r : Fin 512) :
    k0_pay1 (F := Ideal) (k0_pay3 x6) (k0_pay4 x0 x1 x2 x3 x4 x5) (k0_pay5 x0 x2) (constant S4096x50 .f32 0x00000000#32) x7 x8 x9 (ix2 p r)
      = gate (fun d => x0 (ix3 p r d)) (fun d => x1 (ix2 p d)) (fun d => x2 (ix2 p d)) (fun d h => x3 (ix2 d h)) (fun d h => x4 (ix2 d h))
          (fun d h => x5 (ix2 d h)) (fun d h => x6 (ix2 d h)) (fun h => x7 (ix1 h)) (fun h => x8 (ix2 (0 : Fin 1) h)) (x9 (ix1 (0 : Fin 1))) := by
  unfold k0_pay1 k0_pay3 k0_pay4 k0_pay5 k0_pay2 gate
  dsimp only
  refine congrArg₂ (· + ·) ?_ (scalar_apply x9 _ _ p r)
  refine (lanes_apply _ _ _ _ p r).trans (Finset.sum_congr rfl fun h _ => ?_)
  refine congrArg₂ (· * ·) (congrArg Ideal.tanh (congrArg₂ (· + ·) ?_ (bias_apply x7 _ _ p r h))) (wrow_apply x8 _ _ _ p r h)
  refine (unflatten_apply _ _ p r h).trans ?_
  refine congrArg₂ (· + ·) (congrArg₂ (· + ·) (congrArg₂ (· + ·) ?_ ?_) ?_) ?_
  all_goals refine (mm_apply _ _ _ h).trans (Finset.sum_congr rfl fun d _ => ?_)
  all_goals refine congrArg₂ (· * ·) ((flatten_apply _ _ p r d).trans ?_) (by rw [shapeCast_self]; rfl)
  · exact congrArg (fun y => x0 (ix3 p r d) * y) (rows_apply x1 shapeCasts_S8x256_S8x1x256 broadcasts_S8x1x256_S8x512x256 p r d)
  · exact congrArg (fun y => x0 (ix3 p r d) * y) (rows_apply x2 shapeCasts_S8x256_S8x1x256 broadcasts_S8x1x256_S8x512x256 p r d)
  · exact congrArg (fun y => max (x0 (ix3 p r d) - y) (-(x0 (ix3 p r d) - y)))
      (rows_apply x1 shapeCasts_S8x256_S8x1x256 broadcasts_S8x1x256_S8x512x256 p r d)
  · exact congrArg (fun y => max (x0 (ix3 p r d) - y) (-(x0 (ix3 p r d) - y)))
      (rows_apply x2 shapeCasts_S8x256_S8x1x256 broadcasts_S8x1x256_S8x512x256 p r d)

end Cert.Gate.Kern

end
-- ==== Proof.KernelArray.lean ====
/-
  From the blocks a grid step writes to the kernel's whole logits array.

  The grid has 16 steps; step `t` reads batch rows `8 t … 8 t + 7` of the facts, of the question and of the memory, the
  whole of each weight slab (rows `0…255`, `256…511`, `512…767`, `768…1023` of `W1`, cut by the host before the call), both
  biases and the second layer's weights reshaped to a row, and writes back rows `8 t … 8 t + 7` of the `[128, 512]` logits.
  By Proof/KernelBlock.lean entry `(p, r)` of what it writes is the gate on the rows of batch row `8 t + p` at time `r`,
  which is entry `(8 t + p, r)` of `logit` of the argument arrays; the 16 row blocks tile the array, so the array ends
  holding `logit` of the arguments.
-/
import proofs.«139361_j22617297781349_1_alg».proof.Proof.Gen.KernelIdeal.Frame
import proofs.«139361_j22617297781349_1_alg».proof.Proof.KernelBlock
import proofs.«139361_j22617297781349_1_alg».proof.Proof.Spec
import Idealize.ShloMosaic.Lib.Pipeline.Value
import Idealize.ShloMosaic.Lib.ValueIdx
import Idealize.ShloMosaic.Lib.StableHlo.Run

noncomputable section

namespace Cert.Gate.Kern

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Every load of the body reads a whole staging buffer and its one store fills the output's, so what the body leaves
    is its stored value as a term of the ten input blocks. -/
theorem out_eq (x0 : Vec Ideal S8x512x256 .f32) (x1 x2 : Vec Ideal S8x256 .f32) (x3 x4 x5 x6 : Vec Ideal S256x50 .f32)
    (x7 : Vec Ideal S50 .f32) (x8 : Vec Ideal S1x50 .f32) (x9 : Vec Ideal S1 .f32) :
    out0_10 (F := Ideal) x0 x1 x2 x3 x4 x5 x6 x7 x8 x9
      = k0_pay1 (F := Ideal) (k0_pay3 x6) (k0_pay4 x0 x1 x2 x3 x4 x5) (k0_pay5 x0 x2) (constant S4096x50 .f32 0x00000000#32) x7 x8 x9 := by
  unfold out0_10
  rw [View.canon_unit_zero hz2]
  simp only [View.ld_unit_zero (S := S8x512x256) hz3, View.ld_unit_zero (S := S8x256) hz2, View.ld_unit_zero (S := S256x50) hz2,
    View.ld_unit_zero (S := S50) hz1, View.ld_unit_zero (S := S1x50) hz2, View.ld_unit_zero (S := S1) hz1]

/-! ## The arrays the host writes before the call -/

/-- The first weight slab as the call finds it: rows `0…255` of `W1`. -/
theorem slab0_eq (c : Dev nD) : (V m c main_v0 : S256x50.Idx → EReal)
    = extractStridedSlice S256x50 ![0, 0] (m ((c : Thread nD τ).loc main_arg3)) slices_S1024x50_S256x50_0_0 := by
  show StableHlo.after hostOps0 (fun b => m (c, b)) (Proc.devRef .tc main_v0) = _
  after_results
/-- The second: rows `256…511`. -/
theorem slab1_eq (c : Dev nD) : (V m c main_v1 : S256x50.Idx → EReal)
    = extractStridedSlice S256x50 ![256, 0] (m ((c : Thread nD τ).loc main_arg3)) slices_S1024x50_S256x50_256_0 := by
  show StableHlo.after hostOps0 (fun b => m (c, b)) (Proc.devRef .tc main_v1) = _
  after_results
/-- The third: rows `512…767`. -/
theorem slab2_eq (c : Dev nD) : (V m c main_v2 : S256x50.Idx → EReal)
    = extractStridedSlice S256x50 ![512, 0] (m ((c : Thread nD τ).loc main_arg3)) slices_S1024x50_S256x50_512_0 := by
  show StableHlo.after hostOps0 (fun b => m (c, b)) (Proc.devRef .tc main_v2) = _
  after_results
/-- The fourth: rows `768…1023`. -/
theorem slab3_eq (c : Dev nD) : (V m c main_v3 : S256x50.Idx → EReal)
    = extractStridedSlice S256x50 ![768, 0] (m ((c : Thread nD τ).loc main_arg3)) slices_S1024x50_S256x50_768_0 := by
  show StableHlo.after hostOps0 (fun b => m (c, b)) (Proc.devRef .tc main_v3) = _
  after_results
/-- The second layer's weights `[50, 1]` reshaped to a row `[1, 50]`. -/
theorem w2row_eq (c : Dev nD) : (V m c main_v4 : S1x50.Idx → EReal)
    = shapeCast S1x50 (m ((c : Thread nD τ).loc main_arg5)) shapeCasts_S50x1_S1x50 := by
  show StableHlo.after hostOps0 (fun b => m (c, b)) (Proc.devRef .tc main_v4) = _
  after_results
  rfl

/-! ## Where each window's block sits at a grid step -/

/-- The printed index maps over the 16 grid steps: the facts, question, memory and logits windows are at block row `t`,
    every other window at block `0`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- The facts block at step `t`, entry `(p, r, d)`: the facts at batch row `8 t + p`. -/
theorem facts_blk (c : Dev nD) (t : Fin cfg0.N) (p : Fin 8) (r : Fin 512) (d : Fin 256) (k : S128x512x256.Idx)
    (hk0 : (k 0).val = 8 * t.val + p.val) (hk1 : (k 1).val = r.val) (hk2 : (k 2).val = d.val) :
    (iblk m c 0 t : Vec Ideal S8x512x256 .f32) (ix3 p r d) = (m ((c : Thread nD τ).loc main_arg0) : S128x512x256.Idx → EReal) k := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 8 + 1 * p.val = (k 0).val; rw [e0, hk0]; omega
  | ⟨1, _⟩ => show win0_0.index t (1 : Fin 3) * 512 + 1 * r.val = (k 1).val; rw [e1, hk1]; omega
  | ⟨2, _⟩ => show win0_0.index t (2 : Fin 3) * 256 + 1 * d.val = (k 2).val; rw [e2, hk2]; omega

/-- A question or memory block at step `t`, entry `(p, d)`: the array at batch row `8 t + p`. -/
theorem question_blk (c : Dev nD) (t : Fin cfg0.N) (p : Fin 8) (d : Fin 256) (k : S128x256.Idx)
    (hk0 : (k 0).val = 8 * t.val + p.val) (hk1 : (k 1).val = d.val) :
    (iblk m c 1 t : Vec Ideal S8x256 .f32) (ix2 p d) = (m ((c : Thread nD τ).loc main_arg1) : S128x256.Idx → EReal) k := by
  obtain ⟨-, -, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 8 + 1 * p.val = (k 0).val; rw [e0, hk0]; omega
  | ⟨1, _⟩ => show win0_1.index t (1 : Fin 2) * 256 + 1 * d.val = (k 1).val; rw [e1, hk1]; omega

theorem memory_blk (c : Dev nD) (t : Fin cfg0.N) (p : Fin 8) (d : Fin 256) (k : S128x256.Idx)
    (hk0 : (k 0).val = 8 * t.val + p.val) (hk1 : (k 1).val = d.val) :
    (iblk m c 2 t : Vec Ideal S8x256 .f32) (ix2 p d) = (m ((c : Thread nD τ).loc main_arg2) : S128x256.Idx → EReal) k := by
  obtain ⟨-, -, -, -, -, e0, e1, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 8 + 1 * p.val = (k 0).val; rw [e0, hk0]; omega
  | ⟨1, _⟩ => show win0_2.index t (1 : Fin 2) * 256 + 1 * d.val = (k 1).val; rw [e1, hk1]; omega

/-- The first slab's block at any step is the whole slab: entry `(d, h)` is row `d` of `W1`. -/
theorem slab0_blk (c : Dev nD) (t : Fin cfg0.N) (d : Fin 256) (h : Fin 50) :
    (iblk m c 3 t : Vec Ideal S256x50 .f32) (ix2 d h)
      = (m ((c : Thread nD τ).loc main_arg3) : S1024x50.Idx → EReal) (ix2 (⟨d.val, by have := d.isLt; omega⟩ : Fin 1024) h) := by
  obtain ⟨-, -, -, -, -, -, -, e0, e1, -⟩ := idx_facts t
  unfold iblk
  rw [View.read_apply]
  show V m c main_v0 _ = _
  rw [slab0_eq]
  refine extractStridedSlice_apply _ _ _ _ _ fun a => ?_
  match a with
  | ⟨0, _⟩ => show d.val = 0 + (win0_3.index t (0 : Fin 2) * 256 + 1 * d.val); rw [e0]; omega
  | ⟨1, _⟩ => show h.val = 0 + (win0_3.index t (1 : Fin 2) * 50 + 1 * h.val); rw [e1]; omega

/-- The second slab's block: entry `(d, h)` is row `256 + d` of `W1`. -/
theorem slab1_blk (c : Dev nD) (t : Fin cfg0.N) (d : Fin 256) (h : Fin 50) :
    (iblk m c 4 t : Vec Ideal S256x50 .f32) (ix2 d h)
      = (m ((c : Thread nD τ).loc main_arg3) : S1024x50.Idx → EReal) (ix2 (⟨256 + d.val, by have := d.isLt; omega⟩ : Fin 1024) h) := by
  obtain ⟨-, -, -, -, -, -, -, -, -, e0, e1, -⟩ := idx_facts t
  unfold iblk
  rw [View.read_apply]
  show V m c main_v1 _ = _
  rw [slab1_eq]
  refine extractStridedSlice_apply _ _ _ _ _ fun a => ?_
  match a with
  | ⟨0, _⟩ => show 256 + d.val = 256 + (win0_4.index t (0 : Fin 2) * 256 + 1 * d.val); rw [e0]; omega
  | ⟨1, _⟩ => show h.val = 0 + (win0_4.index t (1 : Fin 2) * 50 + 1 * h.val); rw [e1]; omega

/-- The third slab's block: entry `(d, h)` is row `256 + 256 + d` of `W1`. -/
theorem slab2_blk (c : Dev nD) (t : Fin cfg0.N) (d : Fin 256) (h : Fin 50) :
    (iblk m c 5 t : Vec Ideal S256x50 .f32) (ix2 d h)
      = (m ((c : Thread nD τ).loc main_arg3) : S1024x50.Idx → EReal) (ix2 (⟨256 + 256 + d.val, by have := d.isLt; omega⟩ : Fin 1024) h) := by
  obtain ⟨-, -, -, -, -, -, -, -, -, -, -, e0, e1, -⟩ := idx_facts t
  unfold iblk
  rw [View.read_apply]
  show V m c main_v2 _ = _
  rw [slab2_eq]
  refine extractStridedSlice_apply _ _ _ _ _ fun a => ?_
  match a with
  | ⟨0, _⟩ => show 256 + 256 + d.val = 512 + (win0_5.index t (0 : Fin 2) * 256 + 1 * d.val); rw [e0]; omega
  | ⟨1, _⟩ => show h.val = 0 + (win0_5.index t (1 : Fin 2) * 50 + 1 * h.val); rw [e1]; omega

/-- The fourth slab's block: entry `(d, h)` is row `256 + 256 + 256 + d` of `W1`. -/
theorem slab3_blk (c : Dev nD) (t : Fin cfg0.N) (d : Fin 256) (h : Fin 50) :
    (iblk m c 6 t : Vec Ideal S256x50 .f32) (ix2 d h)
      = (m ((c : Thread nD τ).loc main_arg3) : S1024x50.Idx → EReal) (ix2 (⟨256 + 256 + 256 + d.val, by have := d.isLt; omega⟩ : Fin 1024) h) := by
  obtain ⟨-, -, -, -, -, -, -, -, -, -, -, -, -, e0, e1, -⟩ := idx_facts t
  unfold iblk
  rw [View.read_apply]
  show V m c main_v3 _ = _
  rw [slab3_eq]
  refine extractStridedSlice_apply _ _ _ _ _ fun a => ?_
  match a with
  | ⟨0, _⟩ => show 256 + 256 + 256 + d.val = 768 + (win0_6.index t (0 : Fin 2) * 256 + 1 * d.val); rw [e0]; omega
  | ⟨1, _⟩ => show h.val = 0 + (win0_6.index t (1 : Fin 2) * 50 + 1 * h.val); rw [e1]; omega

/-- The first bias's block is the whole bias. -/
theorem bias1_blk (c : Dev nD) (t : Fin cfg0.N) (h : Fin 50) :
    (iblk m c 7 t : Vec Ideal S50 .f32) (ix1 h) = (m ((c : Thread nD τ).loc main_arg4) : S50.Idx → EReal) (ix1 h) := by
  obtain ⟨-, -, -, -, -, -, -, -, -, -, -, -, -, -, -, e0, -⟩ := idx_facts t
  unfold iblk
  rw [View.read_apply]
  show V m c main_arg4 _ = m (c.tc.loc main_arg4) _
  rw [V_main_arg4]
  congr 1
  funext a
  apply Fin.ext
  match a with
  | ⟨0, _⟩ => show win0_7.index t (0 : Fin 1) * 50 + 1 * h.val = h.val; rw [e0]; omega

/-- The second layer's weights as the call finds them, a row: entry `(0, h)` is `W2[h, 0]`. -/
theorem w2_blk (c : Dev nD) (t : Fin cfg0.N) (h : Fin 50) :
    (iblk m c 8 t : Vec Ideal S1x50 .f32) (ix2 (0 : Fin 1) h)
      = (m ((c : Thread nD τ).loc main_arg5) : S50x1.Idx → EReal) (ix2 h (0 : Fin 1)) := by
  obtain ⟨-, -, -, -, -, -, -, -, -, -, -, -, -, -, -, -, e0, e1, -⟩ := idx_facts t
  unfold iblk
  rw [View.read_apply]
  show V m c main_v4 _ = _
  rw [w2row_eq]
  refine shapeCast_apply (s := S50x1) (t := S1x50) _ _ _ (ix2 h (0 : Fin 1)) ?_
  show (S50x1.rowMajor (ix2 h (0 : Fin 1))).val = (S1x50.rowMajor _).val
  rw [Shape.rowMajor_val_two, Shape.rowMajor_val_two]
  show h.val * 1 + 0 = (win0_8.index t (0 : Fin 2) * 1 + 1 * 0) * 50 + (win0_8.index t (1 : Fin 2) * 50 + 1 * h.val)
  rw [e0, e1]; omega

/-- The second bias's block is the whole bias. -/
theorem bias2_blk (c : Dev nD) (t : Fin cfg0.N) :
    (iblk m c 9 t : Vec Ideal S1 .f32) (ix1 (0 : Fin 1)) = (m ((c : Thread nD τ).loc main_arg6) : S1.Idx → EReal) (ix1 (0 : Fin 1)) := by
  obtain ⟨-, -, -, -, -, -, -, -, -, -, -, -, -, -, -, -, -, -, e0, -⟩ := idx_facts t
  unfold iblk
  rw [View.read_apply]
  show V m c main_arg6 _ = m (c.tc.loc main_arg6) _
  rw [V_main_arg6]
  congr 1
  funext a
  apply Fin.ext
  match a with
  | ⟨0, _⟩ => show win0_9.index t (0 : Fin 1) * 1 + 1 * 0 = 0; rw [e0]

/-! ## What a step writes back, the cover, the array -/

/-- The argument arrays as launched, and `logit` of them. -/
abbrev logits (c : Dev nD) : S128x512.Idx → EReal :=
  logit (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What step `t` writes back is its block of `logit` of the argument arrays. -/
theorem flushed_eq (c : Dev nD) (t : Fin cfg0.N) :
    (dats m 0 c).flushed 10 t = ((cfg0.win 10).blk t).view.read (Elt Ideal) (logits m c) := by
  show (cfg0.win 10).cut (grid0.coords t) ((dats m 0 c).after 10 t) = _
  rw [after0_10, out_eq]
  funext j
  obtain ⟨p, r, rfl⟩ : ∃ (p : Fin 8) (r : Fin 512), (j : S8x512.Idx) = ix2 p r := ⟨j 0, j 1, eq_ix2 j⟩
  obtain ⟨-, -, -, -, -, -, -, -, -, -, -, -, -, -, -, -, -, -, -, e0, e1⟩ := idx_facts t
  have hb : ((((cfg0.win 10).blk t).view.emb (ix2 p r) : S128x512.Idx) 0).val = 8 * t.val + p.val := by
    show win0_10.index t (0 : Fin 2) * 8 + 1 * p.val = _; rw [e0]; omega
  have hr : ((((cfg0.win 10).blk t).view.emb (ix2 p r) : S128x512.Idx) 1).val = r.val := by
    show win0_10.index t (1 : Fin 2) * 512 + 1 * r.val = _; rw [e1]; omega
  refine (pay_apply (iblk m c 0 t) (iblk m c 1 t) (iblk m c 2 t) (iblk m c 3 t) (iblk m c 4 t) (iblk m c 5 t) (iblk m c 6 t)
    (iblk m c 7 t) (iblk m c 8 t) (iblk m c 9 t) p r).trans ?_
  show gate _ _ _ _ _ _ _ _ _ _ = logit _ _ _ _ _ _ _ (((cfg0.win 10).blk t).view.emb (ix2 p r))
  unfold logit
  congr 1
  · funext d; exact facts_blk m c t p r d _ hb hr rfl
  · funext d; exact question_blk m c t p d _ hb rfl
  · funext d; exact memory_blk m c t p d _ hb rfl
  · funext d h; exact slab0_blk m c t d h
  · funext d h; exact slab1_blk m c t d h
  · funext d h; exact slab2_blk m c t d h
  · funext d h; exact slab3_blk m c t d h
  · funext h; exact bias1_blk m c t h
  · funext h; exact w2_blk m c t h
  · exact bias2_blk m c t

/-- An entry of the logits array is in step `t`'s block iff each coordinate is in the block's range on its axis. -/
theorem mem_blk (t : Fin cfg0.N) (i : S128x512.Idx) :
    i ∈ ((cfg0.win 10).blk t).view.set ↔ ∀ a : Fin 2, win0_10.index t a * S8x512.size a ≤ (i a).val ∧ (i a).val < win0_10.index t a * S8x512.size a + S8x512.size a := by
  show i ∈ ((View.whole main_v5).slice (win0_10.rect t)).set ↔ _
  rw [View.set_slice_whole, Rect.mem_set_unit]
  exact Iff.rfl

/-- Every entry `(b, r)` is written back by the step `b / 8`: the 16 row blocks tile the array. -/
theorem cover (i : S128x512.Idx) : ∃ t : Fin cfg0.N, (cfg0.win 10).flush t = true ∧ i ∈ ((cfg0.win 10).blk t).view.set := by
  have hi0 : (i 0).val < 128 := (i 0).isLt
  have hi1 : (i 1).val < 512 := (i 1).isLt
  have hN : cfg0.N = 16 := N_0
  obtain ⟨t, ht⟩ : ∃ t : Fin cfg0.N, t.val = (i 0).val / 8 := ⟨⟨(i 0).val / 8, by rw [hN]; omega⟩, rfl⟩
  obtain ⟨-, -, -, -, -, -, -, -, -, -, -, -, -, -, -, -, -, -, -, e0, e1⟩ := idx_facts t
  refine ⟨t, flush0_10 t, ?_⟩
  rw [mem_blk]
  intro a
  match a with
  | ⟨0, _⟩ =>
    show win0_10.index t (0 : Fin 2) * 8 ≤ (i 0).val ∧ (i 0).val < win0_10.index t (0 : Fin 2) * 8 + 8
    rw [e0, ht]; omega
  | ⟨1, _⟩ =>
    show win0_10.index t (1 : Fin 2) * 512 ≤ (i 1).val ∧ (i 1).val < win0_10.index t (1 : Fin 2) * 512 + 512
    rw [e1]; omega

/-- The logits array after the call: `logit` of the argument arrays. -/
theorem final (c : Dev nD) : (dats m 0 c).arrAt 10 cfg0.N = logits m c :=
  (dats m 0 c).arrAt_eq_of_cover 10 (logits m c) (fun t _ => flushed_eq m c t) (cover)

end Cert.Gate.Kern

end
-- ==== Proof.KernelTail.lean ====
/-
  The kernel's result: the softmax of its logits array.

  After the call the host lays the `[128, 512]` logits over a trailing unit axis and runs the same softmax as the reference.
  With the logits array at `logit` of the arguments (Proof/KernelArray.lean) the result is `softmax1` of the logits with their
  unit axis, the reference's own term (Proof/Tail.lean).
-/
import proofs.«139361_j22617297781349_1_alg».proof.Proof.Gen.KernelIdeal.Frame
import proofs.«139361_j22617297781349_1_alg».proof.Proof.KernelArray
import proofs.«139361_j22617297781349_1_alg».proof.Proof.Tail
import Idealize.ShloMosaic.Lib.Pipeline.Value
import Idealize.ShloMosaic.Lib.ValueIdx
import Idealize.ShloMosaic.Lib.StableHlo.Run

noncomputable section

namespace Cert.Gate.Kern

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The softmax of `logit` of the argument arrays, the value both programs end at. -/
abbrev result (c : Dev nD) : Buf (Elt Ideal) ((c : Thread nD τ).loc main_v15) :=
  Cert.Gate.Ref.softmax1 (Cert.Gate.Ref.logits3 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)))

/-- The logits array laid over a trailing unit axis is the logits with their unit axis. -/
theorem lay_eq (c : Dev nD) :
    broadcastInDim S128x512x1 ![0, 1] bcast_S128x512_S128x512x1_0_1 (logits m c)
      = Cert.Gate.Ref.logits3 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  funext fun i => broadcastInDim_apply _ bcast_S128x512_S128x512x1_0_1 (logits m c) i (ix2 (i 0) (i 1)) (fun a => match a with
    | ⟨0, _⟩ => by show (i 0).val = if (128 : Nat) = 1 then 0 else (i 0).val; rw [if_neg (by decide)]
    | ⟨1, _⟩ => by show (i 1).val = if (512 : Nat) = 1 then 0 else (i 1).val; rw [if_neg (by decide)])

/-- What the host's lines after the call leave in the result buffer. -/
theorem tail_eq (c : Dev nD) :
    Pipeline.afterTail₀ cfgs (dats m) 0 (V0 m) [hostOps1] c main_v15 = result m c := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v5)
      = logits m c :=
    (Pipeline.withArrays_arr spec0 launch0.win.arr_inj c _ _ 10).trans (final m c)
  rw [hw, lay_eq]
  rfl

/-- The kernel's run, read: every weakly fair execution ends with the result buffer at the softmax of `logit` of the
    arguments and the arguments unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 7).trans (((dats m 0 c).arrAt_in 7 rfl _).trans ((A_eq m c 7).trans (V_main_arg4 m c))),
      (((h c).2 main_arg5 (Pipeline.mem_restRefs_of main_arg5 (by decide) (by decide))).trans (W_main_arg5 m (dats m) c)),
      ((h c).1 9).trans (((dats m 0 c).arrAt_in 9 rfl _).trans ((A_eq m c 9).trans (V_main_arg6 m c)))⟩)
    (run_main m ρ)

end Cert.Gate.Kern

end
-- ==== Proof.lean ====
/-
  An attention gate over facts `[128, 512, 256]`: for each batch row and time step the row of facts is combined with the
  question and memory rows into four feature rows `f·q`, `f·m`, `|f − q|`, `|f − m|`; a first layer (weights `[1024, 50]`,
  bias, `tanh`) and a second (weights `[50, 1]`, bias) give one logit, and a softmax over that single logit ends both
  programs.

  The kernel runs 16 grid steps of eight batch rows; it never concatenates the features but multiplies each feature
  matrix by its own 256-row slab of the first layer's weights and adds the four products. The reference concatenates the
  features to width 1024 and contracts against the whole weight matrix. On the extended reals a sum over 1024 indices is
  the sum of the sums over its four quarters (commutativity and associativity of `+` only), so both logits are the one
  function `logit` of the arguments (Proof/Spec.lean); a change of float format is the identity, a product into a zero
  accumulator and the host's contraction are the same sum, a lane reduction from zero is the sum. The closing softmax is
  the same host text on both sides and is kept closed (Proof/Tail.lean). No step uses that the inputs are finite.

  Modules: Proof/Spec.lean (the gate, the logit, the quarter law) · Proof/RefLogits.lean (the reference's logits are
  `logit`) · Proof/KernelBlock.lean (a grid step's stored block, entry by entry) · Proof/KernelArray.lean (blocks to the
  whole logits array) · Proof/Tail.lean (the softmax, the reference's result) · Proof/KernelTail.lean (the kernel's
  result and its run). The idealization rewrote no operation, so `preserves` has nothing to state.
-/
import proofs.«139361_j22617297781349_1_alg».proof.Defs
import proofs.«139361_j22617297781349_1_alg».proof.Proof.Gen.Kernel
import proofs.«139361_j22617297781349_1_alg».proof.Proof.Gen.Kernel.Skeleton
import proofs.«139361_j22617297781349_1_alg».proof.Proof.Gen.Kernel.Launch
import proofs.«139361_j22617297781349_1_alg».proof.Proof.Gen.Kernel.Points
import proofs.«139361_j22617297781349_1_alg».proof.Proof.Gen.Kernel.Frame
import proofs.«139361_j22617297781349_1_alg».proof.Proof.Gen.KernelIdeal
import proofs.«139361_j22617297781349_1_alg».proof.Proof.Gen.KernelIdeal.Skeleton
import proofs.«139361_j22617297781349_1_alg».proof.Proof.Gen.KernelIdeal.Launch
import proofs.«139361_j22617297781349_1_alg».proof.Proof.Gen.KernelIdeal.Points
import proofs.«139361_j22617297781349_1_alg».proof.Proof.Gen.KernelIdeal.Frame
import proofs.«139361_j22617297781349_1_alg».proof.Proof.Gen.ReferenceIdeal
import proofs.«139361_j22617297781349_1_alg».proof.Proof.Gen.ReferenceIdeal.Run
import proofs.«139361_j22617297781349_1_alg».proof.Proof.Gen.ReferenceIdeal.Read
import proofs.«139361_j22617297781349_1_alg».proof.Proof.Gen.Pre_finite_inputs
import proofs.«139361_j22617297781349_1_alg».proof.Proof.Tail
import proofs.«139361_j22617297781349_1_alg».proof.Proof.KernelTail
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is host operations only: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with the softmax of `logit` of the arguments. -/
theorem algebraic : Cert.algebraic_KernelIdeal_ReferenceIdeal := by
  intro m ρ m' ρ' _ hagree
  refine ⟨fun c => Cert.Gate.Kern.result m c, Cert.Gate.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Gate.Ref.result_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
